-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x64 : Shape := ⟨2, ![16, 64]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256x128x128 .f32) (main_arg1 : FVec F S16x64 .f32) (main_arg2 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x256x128x128 : Shape := ⟨4, ![16, 256, 128, 128]⟩
abbrev S16x64 : Shape := ⟨2, ![16, 64]⟩
abbrev S256 : Shape := ⟨1, ![256]⟩
abbrev S16x64x1 : Shape := ⟨3, ![16, 64, 1]⟩
abbrev S1x1x256 : Shape := ⟨3, ![1, 1, 256]⟩
abbrev S16x64x256 : Shape := ⟨3, ![16, 64, 256]⟩
abbrev S16x256x16384 : Shape := ⟨3, ![16, 256, 16384]⟩
abbrev S16x256x512 : Shape := ⟨3, ![16, 256, 512]⟩
abbrev S16x256x256 : Shape := ⟨3, ![16, 256, 256]⟩
abbrev S64x256 : Shape := ⟨2, ![64, 256]⟩
abbrev S1x64x256 : Shape := ⟨3, ![1, 64, 256]⟩

abbrev nBuf : Space → Nat
  | .hbm => 11
  | .vmem => 5
  | .smem => 0
  | _ => 0

abbrev bufTy : (tb : Table) → Fin (tcTables nBuf tb) → BufTy
  | .hbm, ⟨0, _⟩ => ⟨S16x256x128x128, .f32⟩
  | .hbm, ⟨1, _⟩ => ⟨S16x64, .f32⟩
  | .hbm, ⟨2, _⟩ => ⟨S256, .f32⟩
  | .hbm, ⟨3, _⟩ => ⟨S16x64x1, .f32⟩
  | .hbm, ⟨4, _⟩ => ⟨S1x1x256, .f32⟩
  | .hbm, ⟨5, _⟩ => ⟨S16x64x256, .f32⟩
  | .hbm, ⟨6, _⟩ => ⟨S16x64x256, .f32⟩
  | .hbm, ⟨7, _⟩ => ⟨S16x64x256, .f32⟩
  | .hbm, ⟨8, _⟩ => ⟨S16x256x16384, .f32⟩
  | .hbm, ⟨9, _⟩ => ⟨S16x256x16384, .f32⟩
  | .hbm, ⟨10, _⟩ => ⟨S16x256x128x128, .f32⟩
  | .local _ .vmem, ⟨0, _⟩ => ⟨S16x256x512, .f32⟩
  | .local _ .vmem, ⟨1, _⟩ => ⟨S16x256x512, .f32⟩
  | .local _ .vmem, ⟨2, _⟩ => ⟨S16x64x256, .f32⟩
  | .local _ .vmem, ⟨3, _⟩ => ⟨S16x256x512, .f32⟩
  | .local _ .vmem, ⟨4, _⟩ => ⟨S16x256x512, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v3 : BitVec 32 := Scalar.muli c0_i32 c256_i32
  v3
def k0_off1 (c0_i32 : BitVec 32) : Fin 3 → Nat :=
  let c0_2 : Index := 0#32
  let c0_3 : Index := 0#32
  let c256_i32 : BitVec 32 := 256#32
  let v3 : BitVec 32 := Scalar.muli c0_i32 c256_i32
  let v4 : BitVec 32 := v3
  let v5 : Index := Scalar.indexCast v4
  ![0, 0, v5.toNat]
def k0_mult2 : BitVec 32 :=
  let c1_i32 : BitVec 32 := 1#32
  let c256_i32_9 : BitVec 32 := 256#32
  let v23 : BitVec 32 := Scalar.muli c1_i32 c256_i32_9
  v23
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x64_S16x64x1 : S16x64.ShapeCasts S16x64x1
  bcast_S256_S1x1x256_2 : S256.BroadcastsInDim S1x1x256 (![2] : Fin 1 → Fin S1x1x256.rank)
  bcast_S16x64x1_S16x64x256_0_1_2 : S16x64x1.BroadcastsInDim S16x64x256 (![0, 1, 2] : Fin 3 → Fin S16x64x256.rank)
  bcast_S1x1x256_S16x64x256_0_1_2 : S1x1x256.BroadcastsInDim S16x64x256 (![0, 1, 2] : Fin 3 → Fin S16x64x256.rank)
  shapeCasts_S16x256x128x128_S16x256x16384 : S16x256x128x128.ShapeCasts S16x256x16384
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  bitsLt_bf16_f32 : FTy.bits .bf16 < FTy.bits .f32
  h_S16x256x256 : 0 < S16x256x256.numel
  shapeCasts_S16x256x256_S16x256x256 : S16x256x256.ShapeCasts S16x256x256
  reduces_S16x64x256_S64x256 : S16x64x256.Reduces [0] S64x256
  shapeCasts_S64x256_S1x64x256 : S64x256.ShapeCasts S1x64x256
  broadcasts_S1x64x256_S16x64x256 : S1x64x256.Broadcasts S16x64x256
  shapeCasts_S16x256x16384_S16x256x128x128 : S16x256x16384.ShapeCasts S16x256x128x128
  dot_S16x64x256_S16x256x256_S16x64x256_2_1_1_2_0_0_wf : DotDims.WF S16x64x256 S16x256x256 S16x64x256 [2] [1] [1] [2] [0] [0]
  dot_S16x64x256_S16x64x256_S16x256x256_1_1_2_2_0_0_wf : DotDims.WF S16x64x256 S16x64x256 S16x256x256 [1] [1] [2] [2] [0] [0]
  hrank0 : 0 < grid0.rank
  k0_mult1_dvd : 256 ∣ k0_mult1.toNat
  k0_off1_inb : ∀ (r : Fin 2), ∀ a, (k0_off1 (BitVec.ofNat 32 r.val)) a + S16x256x256.size a ≤ S16x256x512.size a
  k0_mult2_dvd : 256 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S16x256x16384.size a
  hwx0_0 : ∀ i : grid0.Coords, EltTy.bits .f32 = 32 ∨ (Rect.block (s := S16x256x16384) S16x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64x256.size a ≤ S16x64x256.size a
  hwx0_1 : ∀ i : grid0.Coords, EltTy.bits .f32 = 32 ∨ (Rect.block (s := S16x64x256) S16x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x512.size a ≤ S16x256x16384.size a
  hwx0_2 : ∀ i : grid0.Coords, EltTy.bits .f32 = 32 ∨ (Rect.block (s := S16x256x16384) S16x256x512.size (cc0_transform_2 i) (hinb0_2 i)).WholeWords (EltTy.packing .f32)

variable [Facts₀]

def dot_S16x64x256_S16x256x256_S16x64x256_2_1_1_2_0_0 : DotDims S16x64x256 S16x256x256 S16x64x256 where
  lhsContracting := [2]
  rhsContracting := [1]
  lhsNonContracting := [1]
  rhsNonContracting := [2]
  lhsBatch := [0]
  rhsBatch := [0]
  wf := dot_S16x64x256_S16x256x256_S16x64x256_2_1_1_2_0_0_wf
def dot_S16x64x256_S16x64x256_S16x256x256_1_1_2_2_0_0 : DotDims S16x64x256 S16x64x256 S16x256x256 where
  lhsContracting := [1]
  rhsContracting := [1]
  lhsNonContracting := [2]
  rhsNonContracting := [2]
  lhsBatch := [0]
  rhsBatch := [0]
  wf := dot_S16x64x256_S16x64x256_S16x256x256_1_1_2_2_0_0_wf

abbrev win0_0 : Pipeline.Window sig grid0 :=
  Pipeline.Window.ofSpec (Memref.whole main_v5) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x64 : Shape := ⟨2, ![16, 64]⟩
abbrev S256 : Shape := ⟨1, ![256]⟩
abbrev S16x64x1 : Shape := ⟨3, ![16, 64, 1]⟩
abbrev S1x1x256 : Shape := ⟨3, ![1, 1, 256]⟩
abbrev S16x64x256 : Shape := ⟨3, ![16, 64, 256]⟩
abbrev S16x256x16384 : Shape := ⟨3, ![16, 256, 16384]⟩
abbrev S16x64x16384 : Shape := ⟨3, ![16, 64, 16384]⟩
abbrev S_ : Shape := ⟨0, ![]⟩
abbrev S64x16384 : Shape := ⟨2, ![64, 16384]⟩
abbrev S1x64x16384 : Shape := ⟨3, ![1, 64, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x64, .f32⟩
  | .hbm, ⟨2, _⟩ => ⟨S256, .f32⟩
  | .hbm, ⟨3, _⟩ => ⟨S16x64x1, .f32⟩
  | .hbm, ⟨4, _⟩ => ⟨S1x1x256, .f32⟩
  | .hbm, ⟨5, _⟩ => ⟨S16x64x256, .f32⟩
  | .hbm, ⟨6, _⟩ => ⟨S16x64x256, .f32⟩
  | .hbm, ⟨7, _⟩ => ⟨S16x64x256, .f32⟩
  | .hbm, ⟨8, _⟩ => ⟨S16x256x16384, .f32⟩
  | .hbm, ⟨9, _⟩ => ⟨S16x64x16384, .f32⟩
  | .hbm, ⟨10, _⟩ => ⟨S_, .f32⟩
  | .hbm, ⟨11, _⟩ => ⟨S64x16384, .f32⟩
  | .hbm, ⟨12, _⟩ => ⟨S_, .f32⟩
  | .hbm, ⟨13, _⟩ => ⟨S64x16384, .f32⟩
  | .hbm, ⟨14, _⟩ => ⟨S64x16384, .f32⟩
  | .hbm, ⟨15, _⟩ => ⟨S1x64x16384, .f32⟩
  | .hbm, ⟨16, _⟩ => ⟨S16x64x16384, .f32⟩
  | .hbm, ⟨17, _⟩ => ⟨S16x64x16384, .f32⟩
  | .hbm, ⟨18, _⟩ => ⟨S16x64x16384, .f32⟩
  | .hbm, ⟨19, _⟩ => ⟨S_, .f32⟩
  | .hbm, ⟨20, _⟩ => ⟨S64x16384, .f32⟩
  | .hbm, ⟨21, _⟩ => ⟨S1x64x16384, .f32⟩
  | .hbm, ⟨22, _⟩ => ⟨S16x64x16384, .f32⟩
  | .hbm, ⟨23, _⟩ => ⟨S16x64x16384, .f32⟩
  | .hbm, ⟨24, _⟩ => ⟨S16x256x16384, .f32⟩
  | .hbm, ⟨25, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  shapeCasts_S16x64_S16x64x1 : S16x64.ShapeCasts S16x64x1
  bcast_S256_S1x1x256_2 : S256.BroadcastsInDim S1x1x256 (![2] : Fin 1 → Fin S1x1x256.rank)
  bcast_S16x64x1_S16x64x256_0_1_2 : S16x64x1.BroadcastsInDim S16x64x256 (![0, 1, 2] : Fin 3 → Fin S16x64x256.rank)
  bcast_S1x1x256_S16x64x256_0_1_2 : S1x1x256.BroadcastsInDim S16x64x256 (![0, 1, 2] : Fin 3 → Fin S16x64x256.rank)
  shapeCasts_S16x256x128x128_S16x256x16384 : S16x256x128x128.ShapeCasts S16x256x16384
  reducesTo_S16x64x16384_S64x16384_d0 : S16x64x16384.ReducesTo [0] S64x16384
  h_S_ : 0 < S_.numel
  bcast_S_S64x16384 : S_.BroadcastsInDim S64x16384 (![] : Fin 0 → Fin S64x16384.rank)
  bcast_S64x16384_S1x64x16384_1_2 : S64x16384.BroadcastsInDim S1x64x16384 (![1, 2] : Fin 2 → Fin S1x64x16384.rank)
  bcast_S1x64x16384_S16x64x16384_0_1_2 : S1x64x16384.BroadcastsInDim S16x64x16384 (![0, 1, 2] : Fin 3 → Fin S16x64x16384.rank)
  shapeCasts_S16x256x16384_S16x256x128x128 : S16x256x16384.ShapeCasts S16x256x128x128
  dot_S16x64x256_S16x256x16384_S16x64x16384_2_1_1_2_0_0_wf : DotDims.WF S16x64x256 S16x256x16384 S16x64x16384 [2] [1] [1] [2] [0] [0]
  dot_S16x64x256_S16x64x16384_S16x256x16384_1_1_2_2_0_0_wf : DotDims.WF S16x64x256 S16x64x16384 S16x256x16384 [1] [1] [2] [2] [0] [0]

variable [Facts₀]

def dot_S16x64x256_S16x256x16384_S16x64x16384_2_1_1_2_0_0 : DotDims S16x64x256 S16x256x16384 S16x64x16384 where
  lhsContracting := [2]
  rhsContracting := [1]
  lhsNonContracting := [1]
  rhsNonContracting := [2]
  lhsBatch := [0]
  rhsBatch := [0]
  wf := dot_S16x64x256_S16x256x16384_S16x64x16384_2_1_1_2_0_0_wf
def dot_S16x64x256_S16x64x16384_S16x256x16384_1_1_2_2_0_0 : DotDims S16x64x256 S16x64x16384 S16x256x16384 where
  lhsContracting := [1]
  rhsContracting := [1]
  lhsNonContracting := [2]
  rhsNonContracting := [2]
  lhsBatch := [0]
  rhsBatch := [0]
  wf := dot_S16x64x256_S16x64x16384_S16x256x16384_1_1_2_2_0_0_wf

class Facts : Prop extends Facts₀ where

variable [Facts]
-- ==== Proof.LaneSpec.lean ====
/-
  Attention with the softmax taken over the BATCH axis, one lane at a time.

  Fix a lane (a flattened spatial position) `n`. With `sa b a c` the semantic-attribute tensor and `xc b c = x[b, c, n]`
  the lane's column of the input,
    score b a  = ∑ c, sa b a c * xc b c
    top a      = max over the batch b of score b a        (folded from -∞)
    weight b a = exp (score b a - top a)
    mass a     = ∑ b, weight b a
    lane b c   = ∑ a, sa b a c * (weight b a / mass a)
  on the extended reals. Nothing here mixes two lanes: the result at lane `n` reads the input at lane `n` only, which is
  why any tiling of the lane axis computes the same array.
-/
import Idealize.ShloMosaic.PureOps.Ideal
import Idealize.ShloMosaic.PureOps.Ideal.Laws
import Idealize.ShloMosaic.Lib.ValueIdx

noncomputable section

namespace Cert.BatchAttn

open Idealize.ShloMosaic Idealize.ShloMosaic.ValueIdx

/-- The score of batch element `b` against attribute `a` on one lane: the contraction over the 256 channels. -/
def score (sa : Fin 16 → Fin 64 → Fin 256 → EReal) (xc : Fin 16 → Fin 256 → EReal) (b : Fin 16) (a : Fin 64) : EReal :=
  ∑ c : Fin 256, sa b a c * xc b c

/-- The largest score over the batch, folded from `-∞`. -/
def top (sa : Fin 16 → Fin 64 → Fin 256 → EReal) (xc : Fin 16 → Fin 256 → EReal) (a : Fin 64) : EReal :=
  (Finset.univ : Finset (Fin 16)).fold max ⊥ (fun b => score sa xc b a)

/-- The unnormalised softmax weight. -/
def weight (sa : Fin 16 → Fin 64 → Fin 256 → EReal) (xc : Fin 16 → Fin 256 → EReal) (b : Fin 16) (a : Fin 64) : EReal :=
  Ideal.exp (score sa xc b a - top sa xc a)

/-- The normaliser: the weights summed over the batch. -/
def mass (sa : Fin 16 → Fin 64 → Fin 256 → EReal) (xc : Fin 16 → Fin 256 → EReal) (a : Fin 64) : EReal :=
  ∑ b : Fin 16, weight sa xc b a

/-- The lane's result column: the attributes recombined with the batch-softmax probabilities. -/
def lane (sa : Fin 16 → Fin 64 → Fin 256 → EReal) (xc : Fin 16 → Fin 256 → EReal) (b : Fin 16) (c : Fin 256) : EReal :=
  ∑ a : Fin 64, sa b a c * Ideal.div (weight sa xc b a) (mass sa xc a)

/-- The whole result over a lane axis of any extent `N`: entry `(b, c, n)` is lane `n`'s column at `(b, c)`. -/
def attend {N : Nat} (sa : (⟨3, ![16, 64, 256]⟩ : Shape).Idx → EReal) (x : (⟨3, ![16, 256, N]⟩ : Shape).Idx → EReal) :
    (⟨3, ![16, 256, N]⟩ : Shape).Idx → EReal :=
  fun i => lane (fun b a c => sa (ix3 b a c)) (fun b c => x (ix3 b c (i 2))) (i 0) (i 1)

theorem attend_ix3 {N : Nat} (sa : (⟨3, ![16, 64, 256]⟩ : Shape).Idx → EReal) (x : (⟨3, ![16, 256, N]⟩ : Shape).Idx → EReal)
    (b : Fin 16) (c : Fin 256) (n : Fin N) :
    attend sa x (ix3 b c n) = lane (fun b a c => sa (ix3 b a c)) (fun b c => x (ix3 b c n)) b c := rfl

/-- Lanes are independent: if a lane-axis window `xb` of extent `M` shows the array `xa` from lane `base` on, and the
    attribute tensors agree, then the window's result at lane `n` is the array's result at lane `base + n`. -/
theorem attend_shift {N M : Nat} {sa sb : (⟨3, ![16, 64, 256]⟩ : Shape).Idx → EReal}
    {xa : (⟨3, ![16, 256, N]⟩ : Shape).Idx → EReal} {xb : (⟨3, ![16, 256, M]⟩ : Shape).Idx → EReal} (base : Nat)
    (hs : ∀ (b : Fin 16) (a : Fin 64) (c : Fin 256), sb (ix3 b a c) = sa (ix3 b a c))
    (hx : ∀ (b : Fin 16) (c : Fin 256) (n : Fin M) (n' : Fin N), n'.val = base + n.val → xb (ix3 b c n) = xa (ix3 b c n'))
    (j : (⟨3, ![16, 256, M]⟩ : Shape).Idx) (i : (⟨3, ![16, 256, N]⟩ : Shape).Idx)
    (h0 : (i 0).val = (j 0).val) (h1 : (i 1).val = (j 1).val) (h2 : (i 2).val = base + (j 2).val) :
    attend sb xb j = attend sa xa i := by
  unfold attend
  have hsa : (fun b a c => sb (ix3 b a c)) = fun (b : Fin 16) (a : Fin 64) (c : Fin 256) => sa (ix3 b a c) :=
    funext fun b => funext fun a => funext fun c => hs b a c
  have hxc : (fun b c => xb (ix3 b c (j 2))) = fun (b : Fin 16) (c : Fin 256) => xa (ix3 b c (i 2)) :=
    funext fun b => funext fun c => hx b c (j 2) (i 2) h2
  rw [hsa, hxc, show i 0 = j 0 from Fin.ext h0, show i 1 = j 1 from Fin.ext h1]

/-- Reducing a `[16, 64, N]` array over its batch axis: the source index over the result index `(a, n)` with batch
    coordinate `b` inserted is `(b, a, n)`. -/
theorem lift_batch {N : Nat} (h : Shape.Reduces (⟨3, ![16, 64, N]⟩ : Shape) [0] (⟨2, ![64, N]⟩ : Shape))
    (a : Fin 64) (n : Fin N) (b : Fin 16) : h.lift (ix2 a n) b = ix3 b a n :=
  funext fun d => Fin.ext (by match d with | ⟨0, _⟩ => rfl | ⟨1, _⟩ => rfl | ⟨2, _⟩ => rfl)

/-- The f32 pattern of `-∞` denotes the bottom of the extended reals. -/
theorem ofBits_neg_inf : Ideal.ofBits .f32 0xFF800000#32 = (⊥ : EReal) := by
  simp [Ideal.ofBits, Ideal.ieee]

/-- A maximum against `-∞` changes nothing. -/
theorem max_bot_left (y : EReal) : max (⊥ : EReal) y = y := max_eq_right bot_le

end Cert.BatchAttn

end
-- ==== Proof.RefValue.lean ====
/-
  The reference, stage by stage, is the batch-softmax attention of `LaneSpec`: with `sa` its outer product (stage 4)
  and `xr` the input reshaped to `[16, 256, 16384]` (stage 5),
    stage 6  (b, a, n) = score     — the contraction over the channels,
    stage 9  (a, n)    = top       — the batch maximum; the extra maximum against `-∞` changes nothing,
    stage 13 (b, a, n) = weight,
    stage 14 (a, n)    = 0 + mass,
    stage 18 (b, c, n) = lane      — the contraction over the attributes of `sa * (weight / mass)`.
-/
import proofs.«407829_j1838246002846_3_alg».proof.Proof.Gen.ReferenceIdeal.Read
import proofs.«407829_j1838246002846_3_alg».proof.Proof.LaneSpec

noncomputable section

namespace Cert.ReferenceIdeal.RefValue

open Cert.ReferenceIdeal Cert.ReferenceIdeal.Gen Cert.ReferenceIdeal.Read
open Idealize.ShloMosaic Idealize.ShloMosaic.ValueIdx Cert.BatchAttn

variable (x0 : (⟨S16x256x128x128, .f32⟩ : BufTy).Contents (Elt Ideal)) (x1 : (⟨S16x64, .f32⟩ : BufTy).Contents (Elt Ideal))
  (x2 : (⟨S256, .f32⟩ : BufTy).Contents (Elt Ideal))

/-- The attribute tensor by coordinates. -/
abbrev saOf : Fin 16 → Fin 64 → Fin 256 → EReal := fun b a c => val_main_v4 (F := Ideal) x1 x2 (ix3 b a c)
/-- Lane `n`'s column of the reshaped input. -/
abbrev colOf (n : Fin 16384) : Fin 16 → Fin 256 → EReal := fun b c => val_main_v5 (F := Ideal) x0 (ix3 b c n)

theorem batchReduces : S16x64x16384.Reduces [0] S64x16384 := by decide

theorem stage6_at (b : Fin 16) (a : Fin 64) (n : Fin 16384) :
    val_main_v6 (F := Ideal) x0 x1 x2 (ix3 b a n) = score (saOf x1 x2) (colOf x0 n) b a := by
  rw [val_main_v6_apply]
  refine Finset.sum_congr rfl fun k _ => ?_
  congr 2 <;> exact funext fun d => Fin.ext (by match d with | ⟨0, _⟩ => rfl | ⟨1, _⟩ => rfl | ⟨2, _⟩ => rfl)

theorem stage7_at (a : Fin 64) (n : Fin 16384) :
    val_main_v7 (F := Ideal) x0 x1 x2 (ix2 a n) = top (saOf x1 x2) (colOf x0 n) a := by
  unfold val_main_v7
  rw [Host.reduce_eq_fold_single FloatOps.maximumf _ _ reducesTo_S16x64x16384_S64x16384_d0 batchReduces h_S_ (ix2 a n)]
  have hf : (val_main_v6 (F := Ideal) x0 x1 x2 ∘ batchReduces.lift (ix2 a n))
      = fun b : Fin 16 => score (saOf x1 x2) (colOf x0 n) b a := funext fun b => by
    show val_main_v6 (F := Ideal) x0 x1 x2 (batchReduces.lift (ix2 a n) b) = _
    rw [lift_batch batchReduces a n b]
    exact stage6_at x0 x1 x2 b a n
  rw [hf]
  show (Finset.univ : Finset (Fin 16)).fold max (Ideal.ofBits .f32 0xFF800000#32) _ = _
  rw [ofBits_neg_inf]
  rfl

theorem stage9_at (a : Fin 64) (n : Fin 16384) :
    val_main_v9 (F := Ideal) x0 x1 x2 (ix2 a n) = top (saOf x1 x2) (colOf x0 n) a := by
  rw [val_main_v9_apply, val_main_v8_apply, val_main_cst_0_apply, stage7_at]
  show max (Ideal.ofBits .f32 0xFF800000#32) _ = _
  rw [ofBits_neg_inf, max_bot_left]

theorem stage11_at (b : Fin 16) (a : Fin 64) (n : Fin 16384) :
    val_main_v11 (F := Ideal) x0 x1 x2 (ix3 b a n) = top (saOf x1 x2) (colOf x0 n) a := by
  rw [val_main_v11_apply, val_main_v10_apply, ← stage9_at]
  congr 1
  exact funext fun d => Fin.ext (by match d with | ⟨0, _⟩ => rfl | ⟨1, _⟩ => rfl)

theorem stage13_at (b : Fin 16) (a : Fin 64) (n : Fin 16384) :
    val_main_v13 (F := Ideal) x0 x1 x2 (ix3 b a n) = weight (saOf x1 x2) (colOf x0 n) b a := by
  rw [val_main_v13_apply, val_main_v12_apply, stage6_at, stage11_at]
  rfl

theorem stage14_at (a : Fin 64) (n : Fin 16384) :
    val_main_v14 (F := Ideal) x0 x1 x2 (ix2 a n) = mass (saOf x1 x2) (colOf x0 n) a := by
  rw [val_main_v14_apply, val_main_cst_1_apply]
  show Ideal.ofBits .f32 0x00000000#32 + _ = _
  rw [Ideal.ofBits_zero_f32, zero_add]
  refine Finset.sum_congr rfl fun k _ => ?_
  rw [← stage13_at]
  congr 1
  exact funext fun d => Fin.ext (by match d with | ⟨0, _⟩ => rfl | ⟨1, _⟩ => rfl | ⟨2, _⟩ => rfl)

theorem stage16_at (b : Fin 16) (a : Fin 64) (n : Fin 16384) :
    val_main_v16 (F := Ideal) x0 x1 x2 (ix3 b a n) = mass (saOf x1 x2) (colOf x0 n) a := by
  rw [val_main_v16_apply, val_main_v15_apply, ← stage14_at]
  congr 1
  exact funext fun d => Fin.ext (by match d with | ⟨0, _⟩ => rfl | ⟨1, _⟩ => rfl)

theorem stage17_at (b : Fin 16) (a : Fin 64) (n : Fin 16384) :
    val_main_v17 (F := Ideal) x0 x1 x2 (ix3 b a n)
      = Ideal.div (weight (saOf x1 x2) (colOf x0 n) b a) (mass (saOf x1 x2) (colOf x0 n) a) := by
  rw [val_main_v17_apply, stage13_at, stage16_at]
  rfl

/-- The reference's last contraction is the attention of its stages 4 and 5. -/
theorem stage18_eq :
    val_main_v18 (F := Ideal) x0 x1 x2 = attend (val_main_v4 (F := Ideal) x1 x2) (val_main_v5 (F := Ideal) x0) := by
  funext i
  obtain ⟨b, c, n, rfl⟩ : ∃ (b : Fin 16) (c : Fin 256) (n : Fin 16384), i = ix3 b c n := ⟨i 0, i 1, i 2, eq_ix3 i⟩
  rw [attend_ix3, val_main_v18_apply]
  unfold lane
  refine Finset.sum_congr rfl fun k _ => ?_
  rw [show ridx_main_v18 (ix3 b c n) k = ix3 b k n from
      funext fun d => Fin.ext (by match d with | ⟨0, _⟩ => rfl | ⟨1, _⟩ => rfl | ⟨2, _⟩ => rfl), stage17_at]
  congr 2
  exact funext fun d => Fin.ext (by match d with | ⟨0, _⟩ => rfl | ⟨1, _⟩ => rfl | ⟨2, _⟩ => rfl)

end Cert.ReferenceIdeal.RefValue

end
-- ==== Proof.SliceOps.lean ====
/-
  The kernel body's four non-pointwise operations on one 256-lane sub-slice, read at explicit coordinates on the
  extended reals:
    the score contraction        (b, a, n) ↦ ∑ c, l (b, a, c) * r (b, c, n)        — channels contracted, batch kept,
    the recombining contraction  (b, c, n) ↦ ∑ a, l (b, a, c) * r (b, a, n)        — attributes contracted, batch kept,
    the batch maximum and the batch sum of a `[16, 64, 256]` value, re-laid as `[1, 64, 256]` and broadcast back over
    the batch: at `(b, a, n)` the fold of `max` from `-∞`, and the sum, over `b'` of the value at `(b', a, n)`.
-/
import proofs.«407829_j1838246002846_3_alg».proof.Proof.Gen.KernelIdeal.Skeleton
import proofs.«407829_j1838246002846_3_alg».proof.Proof.LaneSpec
import Idealize.ShloMosaic.Lib.Pipeline.Value
import Idealize.ShloMosaic.Lib.ValueIdx
import Idealize.ShloMosaic.PureOps.Ideal.Laws

noncomputable section

namespace Cert.KernelIdeal.SliceOps

open Cert.KernelIdeal Cert.KernelIdeal.Gen
open Idealize.ShloMosaic Idealize.ShloMosaic.ValueIdx Cert.BatchAttn

/-! ## The score contraction: channels contracted -/

theorem scoreL0 (i : S16x64x256.Idx) (q : dot_S16x64x256_S16x256x256_S16x64x256_2_1_1_2_0_0.contr.Idx) :
    (dot_S16x64x256_S16x256x256_S16x64x256_2_1_1_2_0_0.lhsIdx i q 0).val = (i 0).val := by
  unfold DotDims.lhsIdx
  rw [dif_pos (show (0 : Fin S16x64x256.rank) ∈ dot_S16x64x256_S16x256x256_S16x64x256_2_1_1_2_0_0.lhsBatch by decide)]
  rfl
theorem scoreL1 (i : S16x64x256.Idx) (q : dot_S16x64x256_S16x256x256_S16x64x256_2_1_1_2_0_0.contr.Idx) :
    (dot_S16x64x256_S16x256x256_S16x64x256_2_1_1_2_0_0.lhsIdx i q 1).val = (i 1).val := by
  unfold DotDims.lhsIdx
  rw [dif_neg (show ¬(1 : Fin S16x64x256.rank) ∈ dot_S16x64x256_S16x256x256_S16x64x256_2_1_1_2_0_0.lhsBatch by decide),
    dif_pos (show (1 : Fin S16x64x256.rank) ∈ dot_S16x64x256_S16x256x256_S16x64x256_2_1_1_2_0_0.lhsNonContracting by decide)]
  rfl
theorem scoreL2 (i : S16x64x256.Idx) (q : dot_S16x64x256_S16x256x256_S16x64x256_2_1_1_2_0_0.contr.Idx) :
    (dot_S16x64x256_S16x256x256_S16x64x256_2_1_1_2_0_0.lhsIdx i q 2).val = (q ⟨0, by decide⟩).val :=
  dot_S16x64x256_S16x256x256_S16x64x256_2_1_1_2_0_0.lhsIdx_val_of_single rfl i q
theorem scoreR0 (i : S16x64x256.Idx) (q : dot_S16x64x256_S16x256x256_S16x64x256_2_1_1_2_0_0.contr.Idx) :
    (dot_S16x64x256_S16x256x256_S16x64x256_2_1_1_2_0_0.rhsIdx i q 0).val = (i 0).val := by
  unfold DotDims.rhsIdx
  rw [dif_pos (show (0 : Fin S16x256x256.rank) ∈ dot_S16x64x256_S16x256x256_S16x64x256_2_1_1_2_0_0.rhsBatch by decide)]
  rfl
theorem scoreR1 (i : S16x64x256.Idx) (q : dot_S16x64x256_S16x256x256_S16x64x256_2_1_1_2_0_0.contr.Idx) :
    (dot_S16x64x256_S16x256x256_S16x64x256_2_1_1_2_0_0.rhsIdx i q 1).val = (q ⟨0, by decide⟩).val :=
  dot_S16x64x256_S16x256x256_S16x64x256_2_1_1_2_0_0.rhsIdx_val_of_single rfl i q
theorem scoreR2 (i : S16x64x256.Idx) (q : dot_S16x64x256_S16x256x256_S16x64x256_2_1_1_2_0_0.contr.Idx) :
    (dot_S16x64x256_S16x256x256_S16x64x256_2_1_1_2_0_0.rhsIdx i q 2).val = (i 2).val := by
  unfold DotDims.rhsIdx
  rw [dif_neg (show ¬(2 : Fin S16x256x256.rank) ∈ dot_S16x64x256_S16x256x256_S16x64x256_2_1_1_2_0_0.rhsBatch by decide),
    dif_pos (show (2 : Fin S16x256x256.rank) ∈ dot_S16x64x256_S16x256x256_S16x64x256_2_1_1_2_0_0.rhsNonContracting by decide)]
  rfl

/-- The first matrix product into the zero accumulator, at `(b, a, n)`: the sum over the channels. -/
theorem scores_apply {φ₁ φ₂ : FTy} (l : FVec Ideal S16x64x256 φ₁) (r : FVec Ideal S16x256x256 φ₂) (b : Fin 16) (a : Fin 64) (n : Fin 256) :
    matmul dot_S16x64x256_S16x256x256_S16x64x256_2_1_1_2_0_0 none l r (constant S16x64x256 .f32 0x00000000#32) (ix3 b a n)
      = ∑ c : Fin 256, l (ix3 b a c) * r (ix3 b c n) := by
  simp only [matmul]
  rw [Ideal.matmul_constant_zero_apply, ← Equiv.sum_comp (contrEquiv1 dot_S16x64x256_S16x256x256_S16x64x256_2_1_1_2_0_0 256 rfl rfl).symm]
  refine Finset.sum_congr rfl fun k _ => ?_
  have hk := contrEquiv1_symm_val dot_S16x64x256_S16x256x256_S16x64x256_2_1_1_2_0_0 256 rfl rfl k
  have el : dot_S16x64x256_S16x256x256_S16x64x256_2_1_1_2_0_0.lhsIdx (ix3 b a n) ((contrEquiv1 dot_S16x64x256_S16x256x256_S16x64x256_2_1_1_2_0_0 256 rfl rfl).symm k) = ix3 b a k :=
    funext fun d => Fin.ext (by
      match d with
      | ⟨0, _⟩ => exact scoreL0 _ _
      | ⟨1, _⟩ => exact scoreL1 _ _
      | ⟨2, _⟩ => exact (scoreL2 _ _).trans hk)
  have er : dot_S16x64x256_S16x256x256_S16x64x256_2_1_1_2_0_0.rhsIdx (ix3 b a n) ((contrEquiv1 dot_S16x64x256_S16x256x256_S16x64x256_2_1_1_2_0_0 256 rfl rfl).symm k) = ix3 b k n :=
    funext fun d => Fin.ext (by
      match d with
      | ⟨0, _⟩ => exact scoreR0 _ _
      | ⟨1, _⟩ => exact (scoreR1 _ _).trans hk
      | ⟨2, _⟩ => exact scoreR2 _ _)
  rw [el, er]

/-! ## The recombining contraction: attributes contracted -/

theorem mixL0 (i : S16x256x256.Idx) (q : dot_S16x64x256_S16x64x256_S16x256x256_1_1_2_2_0_0.contr.Idx) :
    (dot_S16x64x256_S16x64x256_S16x256x256_1_1_2_2_0_0.lhsIdx i q 0).val = (i 0).val := by
  unfold DotDims.lhsIdx
  rw [dif_pos (show (0 : Fin S16x64x256.rank) ∈ dot_S16x64x256_S16x64x256_S16x256x256_1_1_2_2_0_0.lhsBatch by decide)]
  rfl
theorem mixL1 (i : S16x256x256.Idx) (q : dot_S16x64x256_S16x64x256_S16x256x256_1_1_2_2_0_0.contr.Idx) :
    (dot_S16x64x256_S16x64x256_S16x256x256_1_1_2_2_0_0.lhsIdx i q 1).val = (q ⟨0, by decide⟩).val :=
  dot_S16x64x256_S16x64x256_S16x256x256_1_1_2_2_0_0.lhsIdx_val_of_single rfl i q
theorem mixL2 (i : S16x256x256.Idx) (q : dot_S16x64x256_S16x64x256_S16x256x256_1_1_2_2_0_0.contr.Idx) :
    (dot_S16x64x256_S16x64x256_S16x256x256_1_1_2_2_0_0.lhsIdx i q 2).val = (i 1).val := by
  unfold DotDims.lhsIdx
  rw [dif_neg (show ¬(2 : Fin S16x64x256.rank) ∈ dot_S16x64x256_S16x64x256_S16x256x256_1_1_2_2_0_0.lhsBatch by decide),
    dif_pos (show (2 : Fin S16x64x256.rank) ∈ dot_S16x64x256_S16x64x256_S16x256x256_1_1_2_2_0_0.lhsNonContracting by decide)]
  rfl
theorem mixR0 (i : S16x256x256.Idx) (q : dot_S16x64x256_S16x64x256_S16x256x256_1_1_2_2_0_0.contr.Idx) :
    (dot_S16x64x256_S16x64x256_S16x256x256_1_1_2_2_0_0.rhsIdx i q 0).val = (i 0).val := by
  unfold DotDims.rhsIdx
  rw [dif_pos (show (0 : Fin S16x64x256.rank) ∈ dot_S16x64x256_S16x64x256_S16x256x256_1_1_2_2_0_0.rhsBatch by decide)]
  rfl
theorem mixR1 (i : S16x256x256.Idx) (q : dot_S16x64x256_S16x64x256_S16x256x256_1_1_2_2_0_0.contr.Idx) :
    (dot_S16x64x256_S16x64x256_S16x256x256_1_1_2_2_0_0.rhsIdx i q 1).val = (q ⟨0, by decide⟩).val :=
  dot_S16x64x256_S16x64x256_S16x256x256_1_1_2_2_0_0.rhsIdx_val_of_single rfl i q
theorem mixR2 (i : S16x256x256.Idx) (q : dot_S16x64x256_S16x64x256_S16x256x256_1_1_2_2_0_0.contr.Idx) :
    (dot_S16x64x256_S16x64x256_S16x256x256_1_1_2_2_0_0.rhsIdx i q 2).val = (i 2).val := by
  unfold DotDims.rhsIdx
  rw [dif_neg (show ¬(2 : Fin S16x64x256.rank) ∈ dot_S16x64x256_S16x64x256_S16x256x256_1_1_2_2_0_0.rhsBatch by decide),
    dif_pos (show (2 : Fin S16x64x256.rank) ∈ dot_S16x64x256_S16x64x256_S16x256x256_1_1_2_2_0_0.rhsNonContracting by decide)]
  rfl

/-- The second matrix product into the zero accumulator, at `(b, c, n)`: the sum over the attributes. -/
theorem mix_apply {φ₁ φ₂ : FTy} (l : FVec Ideal S16x64x256 φ₁) (r : FVec Ideal S16x64x256 φ₂) (b : Fin 16) (c : Fin 256) (n : Fin 256) :
    matmul dot_S16x64x256_S16x64x256_S16x256x256_1_1_2_2_0_0 none l r (constant S16x256x256 .f32 0x00000000#32) (ix3 b c n)
      = ∑ a : Fin 64, l (ix3 b a c) * r (ix3 b a n) := by
  simp only [matmul]
  rw [Ideal.matmul_constant_zero_apply, ← Equiv.sum_comp (contrEquiv1 dot_S16x64x256_S16x64x256_S16x256x256_1_1_2_2_0_0 64 rfl rfl).symm]
  refine Finset.sum_congr rfl fun k _ => ?_
  have hk := contrEquiv1_symm_val dot_S16x64x256_S16x64x256_S16x256x256_1_1_2_2_0_0 64 rfl rfl k
  have el : dot_S16x64x256_S16x64x256_S16x256x256_1_1_2_2_0_0.lhsIdx (ix3 b c n) ((contrEquiv1 dot_S16x64x256_S16x64x256_S16x256x256_1_1_2_2_0_0 64 rfl rfl).symm k) = ix3 b k c :=
    funext fun d => Fin.ext (by
      match d with
      | ⟨0, _⟩ => exact mixL0 _ _
      | ⟨1, _⟩ => exact (mixL1 _ _).trans hk
      | ⟨2, _⟩ => exact mixL2 _ _)
  have er : dot_S16x64x256_S16x64x256_S16x256x256_1_1_2_2_0_0.rhsIdx (ix3 b c n) ((contrEquiv1 dot_S16x64x256_S16x64x256_S16x256x256_1_1_2_2_0_0 64 rfl rfl).symm k) = ix3 b k n :=
    funext fun d => Fin.ext (by
      match d with
      | ⟨0, _⟩ => exact mixR0 _ _
      | ⟨1, _⟩ => exact (mixR1 _ _).trans hk
      | ⟨2, _⟩ => exact mixR2 _ _)
  rw [el, er]

/-! ## A `[64, 256]` row re-laid as `[1, 64, 256]` and broadcast over the batch -/

/-- Reading the broadcast at `(b, a, n)` reads the row at `(a, n)`, whatever `b`. -/
theorem overBatch_apply {α : Type} (r : S64x256.Idx → α) (hsc : S64x256.ShapeCasts S1x64x256) (hb : S1x64x256.Broadcasts S16x64x256)
    (b : Fin 16) (a : Fin 64) (n : Fin 256) :
    broadcastTo S16x64x256 (shapeCast S1x64x256 r hsc) hb (ix3 b a n) = r (ix2 a n) := by
  rw [broadcastTo_apply _ hb (ix3 b a n) (ix3 (0 : Fin 1) a n) (fun d => by
    match d with
    | ⟨0, _⟩ => rfl
    | ⟨1, _⟩ => rfl
    | ⟨2, _⟩ => rfl)]
  exact shapeCast_apply r hsc (ix3 (0 : Fin 1) a n) (ix2 a n) (by
    rw [Shape.rowMajor_val_two, Shape.rowMajor_val_three]
    show a.val * 256 + n.val = ((0 : Nat) * 64 + a.val) * 256 + n.val
    omega)

/-- The batch maximum from `-∞`, broadcast back: at `(b, a, n)` the fold of `max` over `b'` of the value at `(b', a, n)`. -/
theorem batchMax_apply (T : FVec Ideal S16x64x256 .f32) (hr : S16x64x256.Reduces [0] S64x256) (hφ : FKind.Formats .f32)
    (hacc : (0xFF800000#32 : BitVec 32) = FKind.maximumf.neutral .f32 hφ)
    (hsc : S64x256.ShapeCasts S1x64x256) (hb : S1x64x256.Broadcasts S16x64x256) (b : Fin 16) (a : Fin 64) (n : Fin 256) :
    broadcastTo S16x64x256 (shapeCast S1x64x256 (multiReduction .maximumf [0] S64x256 T 0xFF800000#32 hr hφ hacc) hsc) hb (ix3 b a n)
      = (Finset.univ : Finset (Fin 16)).fold max ⊥ (fun b' => T (ix3 b' a n)) := by
  rw [overBatch_apply, Ideal.multiReduction_maximumf_single]
  have hf : (T ∘ hr.lift (ix2 a n)) = fun b' : Fin 16 => T (ix3 b' a n) := funext fun b' => by
    show T (hr.lift (ix2 a n) b') = _
    rw [lift_batch hr a n b']
  rw [hf]
  show (Finset.univ : Finset (Fin 16)).fold max (Ideal.ofBits .f32 0xFF800000#32) _ = _
  rw [ofBits_neg_inf]

/-- The batch sum from zero, broadcast back: at `(b, a, n)` the sum over `b'` of the value at `(b', a, n)`. -/
theorem batchSum_apply (E : FVec Ideal S16x64x256 .f32) (hr : S16x64x256.Reduces [0] S64x256) (hφ : FKind.Formats .f32)
    (hacc : (0x00000000#32 : BitVec 32) = FKind.add.neutral .f32 hφ)
    (hsc : S64x256.ShapeCasts S1x64x256) (hb : S1x64x256.Broadcasts S16x64x256) (b : Fin 16) (a : Fin 64) (n : Fin 256) :
    broadcastTo S16x64x256 (shapeCast S1x64x256 (multiReduction .add [0] S64x256 E 0x00000000#32 hr hφ hacc) hsc) hb (ix3 b a n)
      = ∑ b' : Fin 16, E (ix3 b' a n) := by
  rw [overBatch_apply, Ideal.multiReduction_add_single]
  refine Finset.sum_congr rfl fun b' _ => ?_
  rw [lift_batch hr a n b']

end Cert.KernelIdeal.SliceOps

end
-- ==== Proof.SlicePay.lean ====
/-
  What one 256-lane sub-slice's store holds, entry by entry. The body computes, from the attribute block `v0`
  `[16, 64, 256]` and a sub-slice `v6` `[16, 256, 256]` of the input block,
    scores   = v0 · v6              (channels contracted),
    weights  = exp (scores - max over the batch of scores),
    probs    = weights / (sum over the batch of weights),
    result   = v0ᵀ · probs          (attributes contracted),
  the changes of float format being the identity on the extended reals. Entry `(b, c, n)` of the result is therefore
  `lane` of `v0` and lane `n`'s column of `v6`. The second sub-slice's store holds the same term of its own sub-slice.
-/
import proofs.«407829_j1838246002846_3_alg».proof.Proof.SliceOps

noncomputable section

namespace Cert.KernelIdeal.SlicePay

open Cert.KernelIdeal Cert.KernelIdeal.Gen Cert.KernelIdeal.SliceOps
open Idealize.ShloMosaic Idealize.ShloMosaic.ValueIdx Cert.BatchAttn

variable (v0 : Vec Ideal S16x64x256 .f32) (v6 : Vec Ideal S16x256x256 .f32)

/-- The scores of the sub-slice. -/
def scoresT : FVec Ideal S16x64x256 .f32 :=
  matmul dot_S16x64x256_S16x256x256_S16x64x256_2_1_1_2_0_0 none (k0_pay2 v0)
    (truncf .bf16 (shapeCast S16x256x256 v6 shapeCasts_S16x256x256_S16x256x256) bitsLt_bf16_f32)
    (constant S16x64x256 .f32 0x00000000#32)

/-- The unnormalised weights. -/
def weightsT : FVec Ideal S16x64x256 .f32 :=
  exp (subf (scoresT v0 v6)
    (broadcastTo S16x64x256 (shapeCast S1x64x256
      (multiReduction .maximumf [0] S64x256 (scoresT v0 v6) 0xFF800000#32 reduces_S16x64x256_S64x256 (.inl rfl) rfl)
      shapeCasts_S64x256_S1x64x256) broadcasts_S1x64x256_S16x64x256))

/-- The probabilities. -/
def probsT : FVec Ideal S16x64x256 .f32 :=
  divf (weightsT v0 v6)
    (broadcastTo S16x64x256 (shapeCast S1x64x256
      (multiReduction .add [0] S64x256 (weightsT v0 v6) 0x00000000#32 reduces_S16x64x256_S64x256 (.inl rfl) rfl)
      shapeCasts_S64x256_S1x64x256) broadcasts_S1x64x256_S16x64x256)

/-- The first sub-slice's stored value is the recombination of these stages. -/
theorem pay3_stages :
    k0_pay3 (F := Ideal) v0 v6
      = matmul dot_S16x64x256_S16x64x256_S16x256x256_1_1_2_2_0_0 none (k0_pay2 v0)
          (truncf .bf16 (probsT v0 v6) bitsLt_bf16_f32) (constant S16x256x256 .f32 0x00000000#32) := rfl

/-- The second sub-slice's stored value is the same term of its own sub-slice. -/
theorem pay1_eq_pay3 (v26 : Vec Ideal S16x256x256 .f32) :
    k0_pay1 (F := Ideal) (k0_pay2 v0) (k0_pay4 v0 v26) (k0_pay5 v0 v26) = k0_pay3 (F := Ideal) v0 v26 := rfl

/-- The attribute block by coordinates, and lane `n`'s column of the sub-slice. -/
abbrev saOf : Fin 16 → Fin 64 → Fin 256 → EReal := fun b a c => v0 (ix3 b a c)
abbrev colOf (n : Fin 256) : Fin 16 → Fin 256 → EReal := fun b c => v6 (ix3 b c n)

theorem pay2_at (b : Fin 16) (a : Fin 64) (c : Fin 256) : k0_pay2 (F := Ideal) v0 (ix3 b a c) = v0 (ix3 b a c) := by
  unfold k0_pay2
  simp only [shapeCast_self]
  rfl

theorem scoresT_at (b : Fin 16) (a : Fin 64) (n : Fin 256) :
    scoresT v0 v6 (ix3 b a n) = score (saOf v0) (colOf v6 n) b a := by
  unfold scoresT
  rw [scores_apply]
  refine Finset.sum_congr rfl fun c _ => ?_
  rw [pay2_at]
  simp only [shapeCast_self]
  rfl

theorem weightsT_at (b : Fin 16) (a : Fin 64) (n : Fin 256) :
    weightsT v0 v6 (ix3 b a n) = weight (saOf v0) (colOf v6 n) b a := by
  have hmax := batchMax_apply (scoresT v0 v6) reduces_S16x64x256_S64x256 (.inl rfl) rfl shapeCasts_S64x256_S1x64x256
    broadcasts_S1x64x256_S16x64x256 b a n
  refine (congrArg (fun z => Ideal.exp (scoresT v0 v6 (ix3 b a n) - z)) hmax).trans ?_
  unfold weight top
  simp only [scoresT_at]

theorem probsT_at (b : Fin 16) (a : Fin 64) (n : Fin 256) :
    probsT v0 v6 (ix3 b a n) = Ideal.div (weight (saOf v0) (colOf v6 n) b a) (mass (saOf v0) (colOf v6 n) a) := by
  have hsum := batchSum_apply (weightsT v0 v6) reduces_S16x64x256_S64x256 (.inl rfl) rfl shapeCasts_S64x256_S1x64x256
    broadcasts_S1x64x256_S16x64x256 b a n
  refine (congrArg (fun z => Ideal.div (weightsT v0 v6 (ix3 b a n)) z) hsum).trans ?_
  unfold mass
  simp only [weightsT_at]

/-- Entry `(b, c, n)` of the sub-slice's stored value is lane `n`'s result at `(b, c)`. -/
theorem pay3_at (b : Fin 16) (c : Fin 256) (n : Fin 256) :
    k0_pay3 (F := Ideal) v0 v6 (ix3 b c n) = lane (saOf v0) (colOf v6 n) b c := by
  rw [pay3_stages, mix_apply]
  unfold lane
  refine Finset.sum_congr rfl fun a _ => ?_
  rw [pay2_at, truncf_apply, probsT_at]

end Cert.KernelIdeal.SlicePay

end
-- ==== Proof.BlockValue.lean ====
/-
  From the body's two stores to the whole result array.

  One grid point `t` holds the attribute tensor whole and lanes `512 t … 512 t + 511` of the reshaped input. The body
  writes its output block in two 256-lane halves, each the batch-softmax attention of the attribute block and its own
  half of the input block; lanes being independent, the block as a whole is `attend` of the two input blocks
  (`out_eq`), which is block `t` of `attend` of the whole arrays (`flushed_eq`). The 32 blocks tile the lane axis —
  lane `n` lies in block `n / 512` (`cover`) — so the result array ends as `attend` of the arrays the region was
  entered with (`final`).
-/
import proofs.«407829_j1838246002846_3_alg».proof.Proof.Gen.KernelIdeal.Frame
import proofs.«407829_j1838246002846_3_alg».proof.Proof.SlicePay
import Idealize.ShloMosaic.Lib.Pipeline.Value
import Idealize.ShloMosaic.Lib.Tactic

set_option maxRecDepth 16384

noncomputable section

namespace Cert.KernelIdeal.BlockValue

open Cert.KernelIdeal Cert.KernelIdeal.Gen Cert.KernelIdeal.SlicePay
open Idealize.ShloMosaic Idealize.ShloMosaic.TcCoe Idealize.ShloMosaic.Tactic Idealize.SL.Sem
open Idealize.ShloMosaic.ValueIdx Cert.BatchAttn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## One store: a 256-lane half of the block -/

/-- The value stored for the half that starts at lane `off`: at the half's index `x` it is `attend` of the two input
    blocks at the block index `x` stands for. -/
theorem half_eq (x1 : Vec Ideal S16x64x256 .f32) (x0 : Vec Ideal S16x256x512 .f32) (off : Nat) (hoff : off + 256 ≤ 512)
    (inb : ∀ a, (![0, 0, off] : Fin 3 → Nat) a + S16x256x256.size a ≤ S16x256x512.size a) (x : S16x256x256.Idx) :
    k0_pay3 (F := Ideal) x1 (View.ld x0 (Rect.unit (s := S16x256x512) ![0, 0, off] S16x256x256.size inb)) x
      = attend (N := 512) x1 x0 ((Rect.unit (s := S16x256x512) ![0, 0, off] S16x256x256.size inb).emb x) := by
  obtain ⟨b, c, n, rfl⟩ : ∃ (b : Fin 16) (c : Fin 256) (n : Fin 256), x = ix3 b c n := ⟨x 0, x 1, x 2, eq_ix3 x⟩
  rw [pay3_at]
  have hn : n.val < 256 := n.isLt
  refine (attend_shift (N := 512) (M := 256) (sa := x1) (sb := x1)
    (xa := x0) (xb := View.ld x0 (Rect.unit (s := S16x256x512) ![0, 0, off] S16x256x256.size inb)) off
    (fun _ _ _ => rfl) ?_ (ix3 b c n) _ ?_ ?_ ?_)
  · intro b' c' n' n'' hn''
    show x0 ((Rect.unit (s := S16x256x512) ![0, 0, off] S16x256x256.size inb).emb (ix3 b' c' n')) = x0 (ix3 b' c' n'')
    congr 1
    funext d
    apply Fin.ext
    match d with
    | ⟨0, _⟩ => show 0 + 1 * b'.val = b'.val; omega
    | ⟨1, _⟩ => show 0 + 1 * c'.val = c'.val; omega
    | ⟨2, _⟩ => show off + 1 * n'.val = n''.val; omega
  · show 0 + 1 * b.val = b.val; omega
  · show 0 + 1 * c.val = c.val; omega
  · show off + 1 * n.val = off + n.val; omega

/-! ## The block the body leaves -/

/-- The body's two stores leave `attend` of the attribute block and the input block. -/
theorem out_eq (c : Dev nD) (i : grid0.Coords) (arg1 : Memref sig .tc .vmem S16x256x512 .f32) (harg1 : arg1.IsWhole)
    (arg2 : Memref sig .tc .vmem S16x64x256 .f32) (harg2 : arg2.IsWhole) (arg3 : Memref sig .tc .vmem S16x256x512 .f32) (harg3 : arg3.IsWhole)
    (x0 : Vec Ideal S16x256x512 .f32) (x1 : Vec Ideal S16x64x256 .f32) :
    out0_A_2 (F := Ideal) c i arg1 harg1 arg2 harg2 arg3 harg3 x0 x1 = attend (N := 512) x1 x0 := by
  funext y
  unfold out0_A_2
  refine View.read_writes_apply_of_pieces VO0_2 _ (attend (N := 512) x1 x0) _ ?_ y
    (cover0_A_2 c i arg1 harg1 arg2 harg2 arg3 harg3 x0 x1 y)
  unfold kernelRun0_A
  dsimp only
  sl_unfold_words
  simp only [View.readAt_eq_ld, harg1.read_unread, harg2.read_unread, View.ld_unit_zero (S := S16x64x256) hz3]
  intro p hp x
  simp only [List.mem_cons, List.not_mem_nil, or_false] at hp
  rcases hp with rfl | rfl
  · show k0_pay1 (F := Ideal) _ _ _ x = _
    rw [pay1_eq_pay3]
    exact half_eq x1 x0 256 (by omega) _ x
  · exact half_eq x1 x0 0 (by omega) _ x

/-! ## Block `t` in the whole arrays -/

/-- The printed index maps, decided over the 32 grid points: the attribute window never moves, and the input and
    output windows sit at lane block `t`. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = t.val :=
  (by decide +kernel : ∀ t : Fin grid0.N, _)

/-- The arrays the region is entered with: the attribute tensor and the reshaped input. -/
abbrev saArr (c : Dev nD) : Vec Ideal S16x64x256 .f32 := V m c main_v4
abbrev xArr (c : Dev nD) : Vec Ideal S16x256x16384 .f32 := V m c main_v5

/-- What point `t` writes back is block `t` of `attend` of the entry arrays. -/
theorem flushed_eq (c : Dev nD) (t : Fin cfg0.N) :
    (dats m 0 c).flushed 2 t = ((cfg0.win 2).blk t).view.read (Elt Ideal) (attend (N := 16384) (saArr m c) (xArr m c)) := by
  show (cfg0.win 2).cut (grid0.coords t) ((dats m 0 c).after 2 t) = _
  rw [after0_2]
  unfold outsAt0
  rw [out_eq]
  obtain ⟨a0, a1, a2, s0, s1, s2, o0, o1, o2⟩ := idx_facts t
  funext j
  show attend (N := 512) (iblk m c 1 t) (iblk m c 0 t) j
    = attend (N := 16384) (saArr m c) (xArr m c) (((cfg0.win 2).blk t).view.emb j)
  refine attend_shift (N := 16384) (M := 512) (512 * t.val) ?_ ?_ j _ ?_ ?_ ?_
  · intro b a c'
    show V m c main_v4 (((cfg0.win 1).blk t).view.emb (ix3 b a c')) = V m c main_v4 (ix3 b a c')
    congr 1
    funext d
    apply Fin.ext
    match d with
    | ⟨0, _⟩ => show win0_1.index t (0 : Fin 3) * 16 + 1 * b.val = b.val; omega
    | ⟨1, _⟩ => show win0_1.index t (1 : Fin 3) * 64 + 1 * a.val = a.val; omega
    | ⟨2, _⟩ => show win0_1.index t (2 : Fin 3) * 256 + 1 * c'.val = c'.val; omega
  · intro b c' n n' hn'
    show V m c main_v5 (((cfg0.win 0).blk t).view.emb (ix3 b c' n)) = V m c main_v5 (ix3 b c' n')
    congr 1
    funext d
    apply Fin.ext
    match d with
    | ⟨0, _⟩ => show win0_0.index t (0 : Fin 3) * 16 + 1 * b.val = b.val; omega
    | ⟨1, _⟩ => show win0_0.index t (1 : Fin 3) * 256 + 1 * c'.val = c'.val; omega
    | ⟨2, _⟩ => show win0_0.index t (2 : Fin 3) * 512 + 1 * n.val = n'.val; omega
  · show win0_2.index t (0 : Fin 3) * 16 + 1 * (j 0).val = (j 0).val; omega
  · show win0_2.index t (1 : Fin 3) * 256 + 1 * (j 1).val = (j 1).val; omega
  · show win0_2.index t (2 : Fin 3) * 512 + 1 * (j 2).val = 512 * t.val + (j 2).val; omega

/-- An index of the result array is in point `t`'s block iff each coordinate is in the block's range on its axis. -/
theorem mem_blk (t : Fin cfg0.N) (i : S16x256x16384.Idx) :
    i ∈ ((cfg0.win 2).blk t).view.set ↔ ∀ a : Fin 3, win0_2.index t a * S16x256x512.size a ≤ (i a).val
      ∧ (i a).val < win0_2.index t a * S16x256x512.size a + S16x256x512.size a := by
  show i ∈ ((View.whole main_v6).slice (win0_2.rect t)).set ↔ _
  rw [View.set_slice_whole, Rect.mem_set_unit]
  exact Iff.rfl

/-- The 32 blocks tile the lane axis: lane `n` lies in block `n / 512`. -/
theorem cover (i : S16x256x16384.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 16384 := (i 2).isLt
  have hN : cfg0.N = 32 := N_0
  let t : Fin cfg0.N := ⟨(i 2).val / 512, by rw [hN]; omega⟩
  obtain ⟨-, -, -, -, -, -, o0, o1, o2⟩ := idx_facts t
  have ht : t.val = (i 2).val / 512 := rfl
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- The result array after the region: `attend` of the entry arrays. -/
theorem final (c : Dev nD) : (dats m 0 c).arrAt 2 cfg0.N = attend (N := 16384) (saArr m c) (xArr m c) :=
  (dats m 0 c).arrAt_eq_of_cover 2 (attend (N := 16384) (saArr m c) (xArr m c)) (fun t _ => flushed_eq m c t) cover

end Cert.KernelIdeal.BlockValue

end
-- ==== Proof.KernelRun.lean ====
/-
  The idealized kernel's run with its result named.

  Before the region the host computes the attribute tensor `sa = attr[:, :, None] * w_emb[None, None, :]` and reshapes
  the input to `[16, 256, 16384]`; the region leaves `attend sa x` in its output array (`BlockValue.final`); the one
  host line after the region reshapes that array to `[16, 256, 128, 128]`. So every weakly fair execution ends with
  the result at `reshape (attend sa x)` of the argument arrays, and the arguments unchanged.
-/
import proofs.«407829_j1838246002846_3_alg».proof.Proof.BlockValue
import Idealize.ShloMosaic.Lib.StableHlo.Run

set_option maxRecDepth 16384

noncomputable section

namespace Cert.KernelIdeal.KernelRun

open Cert.KernelIdeal Cert.KernelIdeal.Gen Cert.KernelIdeal.BlockValue
open Idealize.ShloMosaic Idealize.ShloMosaic.TcCoe Idealize.ShloMosaic.Tactic Idealize.SL.Sem Idealize.ShloMosaic.StableHlo
open Idealize.ShloMosaic.ValueIdx Cert.BatchAttn
open Idealize.ShloMosaic.Pipeline (Dat)

variable (m : (ℓ : Loc nD τ sig) → Buf (Elt Ideal) ℓ) (ρ : Dev nD → PrngReg)

/-- The attribute tensor as the host lines before the region compute it from the arguments. -/
def saOfArgs (x1 : FVec Ideal S16x64 .f32) (x2 : FVec Ideal S256 .f32) : FVec Ideal S16x64x256 .f32 :=
  mulf (broadcastInDim S16x64x256 ![0, 1, 2] bcast_S16x64x1_S16x64x256_0_1_2 (shapeCast S16x64x1 x1 shapeCasts_S16x64_S16x64x1))
    (broadcastInDim S16x64x256 ![0, 1, 2] bcast_S1x1x256_S16x64x256_0_1_2 (broadcastInDim S1x1x256 ![2] bcast_S256_S1x1x256_2 x2))

/-- The input with its two spatial axes flattened. -/
def xOfArgs (x0 : FVec Ideal S16x256x128x128 .f32) : FVec Ideal S16x256x16384 .f32 :=
  shapeCast S16x256x16384 x0 shapeCasts_S16x256x128x128_S16x256x16384

/-- The whole result as a function of the three argument arrays. -/
def resultOfArgs (x0 : FVec Ideal S16x256x128x128 .f32) (x1 : FVec Ideal S16x64 .f32) (x2 : FVec Ideal S256 .f32) :
    FVec Ideal S16x256x128x128 .f32 :=
  shapeCast S16x256x128x128 (attend (N := 16384) (saOfArgs x1 x2) (xOfArgs x0)) shapeCasts_S16x256x16384_S16x256x128x128

theorem saArr_eq (c : Dev nD) :
    saArr m c = saOfArgs (m ((c : Thread nD τ).loc main_arg1)) (m ((c : Thread nD τ).loc main_arg2)) := by
  show StableHlo.after hostOps0 (fun b => m (c, b)) (Proc.devRef .tc main_v4) = _
  after_results
  rfl

theorem xArr_eq (c : Dev nD) : xArr m c = xOfArgs (m ((c : Thread nD τ).loc main_arg0)) := by
  show StableHlo.after hostOps0 (fun b => m (c, b)) (Proc.devRef .tc main_v5) = _
  after_results
  rfl

/-- The line after the region reshapes the region's output array. -/
theorem tail_eq (c : Dev nD) :
    Pipeline.afterTail₀ cfgs (dats m) 0 (V0 m) [hostOps1] c main_v7
      = resultOfArgs (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = attend (N := 16384) (saArr m c) (xArr m c) :=
    (Pipeline.withArrays_arr spec0 launch0.win.arr_inj c _ _ 2).trans (final m c)
  rw [hw, saArr_eq, xArr_eq]
  rfl

/-- Every weakly fair execution of the idealized kernel ends with the result at `reshape (attend sa x)` of the
    arguments, and the arguments unchanged. -/
theorem run : θ_run defs (onTc (τ := τ) (main (F := Ideal))) ⟨m, fun _ => 0, ρ⟩ fun r => ∀ c : Dev nD,
      r.2.mem ((c.tc : Thread nD τ).loc main_v7)
        = resultOfArgs (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  Attention with the softmax over the batch axis: the Pallas kernel against its jnp reference, on the extended reals.

  Both programs first form `sa = attr[:, :, None] * w_emb[None, None, :]` (`[16, 64, 256]`) and flatten the input's two
  spatial axes (`x : [16, 256, 16384]`), and both end by restoring them; in between, for every lane `n`,
    score b a = ∑ c, sa b a c * x b c n,   weight b a = exp (score b a - max over b of score b a),
    result b c n = ∑ a, sa b a c * (weight b a / ∑ b', weight b' a)                              (`LaneSpec.attend`).
  The reference computes this with two `dot_general`s over the whole lane axis (`RefValue.stage18_eq`; jax's softmax
  takes one more maximum against `-∞`, which changes nothing). The kernel walks the lane axis in 32 blocks of 512 and
  each block in two halves of 256, with the same operations per half; a lane's result reads that lane's inputs only, so
  the tiling is invisible in the result (`BlockValue.final`, `KernelRun.run`). The changes of float format inside the
  kernel are the identity on the extended reals, a matrix product into a zero accumulator is the plain sum, and no law
  used here needs the inputs to be finite.

  The frames are the generated ones (the reference's is its generated run with the result dropped); the kernel's
  idealization rewrote no operation, so `preserves` has nothing to state.
-/
import proofs.«407829_j1838246002846_3_alg».proof.Defs
import proofs.«407829_j1838246002846_3_alg».proof.Proof.Gen.Kernel
import proofs.«407829_j1838246002846_3_alg».proof.Proof.Gen.Kernel.Skeleton
import proofs.«407829_j1838246002846_3_alg».proof.Proof.Gen.Kernel.Launch
import proofs.«407829_j1838246002846_3_alg».proof.Proof.Gen.Kernel.Points
import proofs.«407829_j1838246002846_3_alg».proof.Proof.Gen.Kernel.Frame
import proofs.«407829_j1838246002846_3_alg».proof.Proof.Gen.KernelIdeal
import proofs.«407829_j1838246002846_3_alg».proof.Proof.Gen.KernelIdeal.Skeleton
import proofs.«407829_j1838246002846_3_alg».proof.Proof.Gen.KernelIdeal.Launch
import proofs.«407829_j1838246002846_3_alg».proof.Proof.Gen.KernelIdeal.Points
import proofs.«407829_j1838246002846_3_alg».proof.Proof.Gen.KernelIdeal.Frame
import proofs.«407829_j1838246002846_3_alg».proof.Proof.Gen.ReferenceIdeal
import proofs.«407829_j1838246002846_3_alg».proof.Proof.Gen.ReferenceIdeal.Run
import proofs.«407829_j1838246002846_3_alg».proof.Proof.Gen.ReferenceIdeal.Read
import proofs.«407829_j1838246002846_3_alg».proof.Proof.Gen.Pre_finite_inputs
import proofs.«407829_j1838246002846_3_alg».proof.Proof.RefValue
import proofs.«407829_j1838246002846_3_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's last stage is the kernel's function of the same three arguments: its last contraction is
    `attend` of its own outer product and reshaped input, which are the kernel's host-side terms. -/
theorem reference_result (x0 : (⟨Cert.ReferenceIdeal.S16x256x128x128, .f32⟩ : BufTy).Contents (Elt Ideal))
    (x1 : (⟨Cert.ReferenceIdeal.S16x64, .f32⟩ : BufTy).Contents (Elt Ideal))
    (x2 : (⟨Cert.ReferenceIdeal.S256, .f32⟩ : BufTy).Contents (Elt Ideal)) :
    Cert.ReferenceIdeal.Read.val_main_v19 (F := Ideal) x0 x1 x2 = Cert.KernelIdeal.KernelRun.resultOfArgs x0 x1 x2 := by
  unfold Cert.ReferenceIdeal.Read.val_main_v19
  rw [Cert.ReferenceIdeal.RefValue.stage18_eq]
  rfl

/-- From memories agreeing on the arguments both programs end with the result at the same function of them. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (reference_result _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
